-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x2 : Shape := ⟨2, ![800000, 2]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S800000x2 32) (main_arg2 : FVec F S128x128 .f32) (main_arg3 : FVec F S128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S800000x2 : Shape := ⟨2, ![800000, 2]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 84
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S800000x2, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S2x800000, .i32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S_, .i32⟩
  | .hbm, ⟨17, _⟩ => ⟨S850000, .i32⟩
  | .hbm, ⟨18, _⟩ => ⟨S850000, .i1⟩
  | .hbm, ⟨19, _⟩ => ⟨S_, .i32⟩
  | .hbm, ⟨20, _⟩ => ⟨S850000, .i32⟩
  | .hbm, ⟨21, _⟩ => ⟨S850000, .i32⟩
  | .hbm, ⟨22, _⟩ => ⟨S850000, .i32⟩
  | .hbm, ⟨23, _⟩ => ⟨S850000x1, .i32⟩
  | .hbm, ⟨24, _⟩ => ⟨S_, .f32⟩
  | .hbm, ⟨25, _⟩ => ⟨S850000, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S850000x1, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x128, .f32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x64, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x64, .f32⟩
  | .hbm, ⟨76, _⟩ => ⟨S850000x64, .f32⟩
  | .hbm, ⟨77, _⟩ => ⟨S850000x64, .f32⟩
  | .hbm, ⟨78, _⟩ => ⟨S_, .f32⟩
  | .hbm, ⟨79, _⟩ => ⟨S50000x64, .f32⟩
  | .hbm, ⟨80, _⟩ => ⟨S850000x1, .i32⟩
  | .hbm, ⟨81, _⟩ => ⟨S50000x64, .f32⟩
  | .hbm, ⟨82, _⟩ => ⟨S1x64, .f32⟩
  | .hbm, ⟨83, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_9 : Ref sig .tc := ⟨.hbm, 67, rfl⟩
abbrev main_v50 : Ref sig .tc := ⟨.hbm, 68, rfl⟩
abbrev main_v51 : Ref sig .tc := ⟨.hbm, 69, rfl⟩
abbrev main_c_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  transposes_S800000x2_S2x800000_1_0 : S800000x2.Transposes [1, 0] S2x800000
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000x2 : Shape := ⟨2, ![800000, 2]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x2, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S2x800000, .i32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S_, .i32⟩
  | .hbm, ⟨17, _⟩ => ⟨S850000, .i32⟩
  | .hbm, ⟨18, _⟩ => ⟨S850000, .i1⟩
  | .hbm, ⟨19, _⟩ => ⟨S_, .i32⟩
  | .hbm, ⟨20, _⟩ => ⟨S850000, .i32⟩
  | .hbm, ⟨21, _⟩ => ⟨S850000, .i32⟩
  | .hbm, ⟨22, _⟩ => ⟨S850000, .i32⟩
  | .hbm, ⟨23, _⟩ => ⟨S850000x1, .i32⟩
  | .hbm, ⟨24, _⟩ => ⟨S_, .f32⟩
  | .hbm, ⟨25, _⟩ => ⟨S850000, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S850000x1, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x128, .f32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000x64, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x64, .f32⟩
  | .hbm, ⟨80, _⟩ => ⟨S850000x64, .f32⟩
  | .hbm, ⟨81, _⟩ => ⟨S850000x64, .f32⟩
  | .hbm, ⟨82, _⟩ => ⟨S_, .f32⟩
  | .hbm, ⟨83, _⟩ => ⟨S50000x64, .f32⟩
  | .hbm, ⟨84, _⟩ => ⟨S850000x1, .i32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_c_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_call0_cst : Ref sig .tc := ⟨.hbm, 67, rfl⟩
abbrev main_call0_v0 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]

class Facts₀ : Prop where
  transposes_S800000x2_S2x800000_1_0 : S800000x2.Transposes [1, 0] S2x800000
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Spec.lean ====
/-
  The four dense stages of a two-layer graph convolution, each as ONE function of whole arrays, index by index, over
  the extended reals.  A layer is  out = agg(h) + b  with  h = X · W  (rows of node features times a weight matrix) and
  agg a gather / scatter-add along the edges; the first layer is followed by max(·, 0).  The edge aggregation is the
  same host computation on both sides of the claim and is never opened; what is stated here are the two kinds of dense
  stage around it:

    * rows times a matrix:   (X · W)[r, c] = Σ_k X[r, k] · W[k, c]        (128 → 128, and 128 → 64)
    * a row added to every row, with or without the clamp at zero:
        (A ⊕ b)[r, c] = A[r, c] + b[0, c],      relu(A ⊕ b)[r, c] = max (A[r, c] + b[0, c]) 0

  The zero of the clamp is kept as the 32-bit pattern both programs print; it is the same word on both sides and is
  never evaluated.
-/
import Idealize.ShloMosaic.PureOps.Ideal
import Idealize.ShloMosaic.Lib.ValueIdx

noncomputable section

namespace GraphConv

open Idealize.ShloMosaic Idealize.ShloMosaic.ValueIdx

/-- 50000 nodes with 128 features, with 64 features; the two weight matrices; the two bias rows. -/
abbrev N128 : Shape := ⟨2, ![50000, 128]⟩
abbrev N64 : Shape := ⟨2, ![50000, 64]⟩
abbrev W128 : Shape := ⟨2, ![128, 128]⟩
abbrev W64 : Shape := ⟨2, ![128, 64]⟩
abbrev B128 : Shape := ⟨2, ![1, 128]⟩
abbrev B64 : Shape := ⟨2, ![1, 64]⟩

/-- Entry `(r, k)` of a node-feature array, entry `(k, c)` of a weight matrix, entry `(0, c)` of a bias row: the
    coordinates rebuilt at their literal extents. -/
abbrev rowAt (i : N128.Idx) (k : Fin 128) : N128.Idx := ix2 (⟨(i 0).val, (i 0).isLt⟩ : Fin 50000) k
abbrev rowAt' (i : N64.Idx) (k : Fin 128) : N128.Idx := ix2 (⟨(i 0).val, (i 0).isLt⟩ : Fin 50000) k
abbrev colAt (i : N128.Idx) (k : Fin 128) : W128.Idx := ix2 k (⟨(i 1).val, (i 1).isLt⟩ : Fin 128)
abbrev colAt' (i : N64.Idx) (k : Fin 128) : W64.Idx := ix2 k (⟨(i 1).val, (i 1).isLt⟩ : Fin 64)
abbrev biasAt (i : N128.Idx) : B128.Idx := ix2 (0 : Fin 1) (⟨(i 1).val, (i 1).isLt⟩ : Fin 128)
abbrev biasAt' (i : N64.Idx) : B64.Idx := ix2 (0 : Fin 1) (⟨(i 1).val, (i 1).isLt⟩ : Fin 64)

/-- Node features times the first layer's weights: entry `(r, c)` is the sum over `k` of `X[r, k] · W[k, c]`. -/
def timesW128 (X : FVec Ideal N128 .f32) (W : FVec Ideal W128 .f32) : FVec Ideal N128 .f32 :=
  fun i => ∑ k : Fin 128, X (rowAt i k) * W (colAt i k)

/-- Hidden features times the second layer's weights. -/
def timesW64 (X : FVec Ideal N128 .f32) (W : FVec Ideal W64 .f32) : FVec Ideal N64 .f32 :=
  fun i => ∑ k : Fin 128, X (rowAt' i k) * W (colAt' i k)

/-- The first layer's epilogue: the bias row added to every row, then the clamp at zero. -/
def addRowRelu (A : FVec Ideal N128 .f32) (b : FVec Ideal B128 .f32) : FVec Ideal N128 .f32 :=
  fun i => max (A i + b (biasAt i)) (Ideal.ofBits .f32 0x00000000#32)

/-- The second layer's epilogue: the bias row added to every row. -/
def addRow (A : FVec Ideal N64 .f32) (b : FVec Ideal B64 .f32) : FVec Ideal N64 .f32 :=
  fun i => A i + b (biasAt' i)

end GraphConv

end
-- ==== Proof.Dense0.lean ====
/-
  The first dense stage, region by region: the row-blocked product.  The grid has ten points; point `t` stages rows
  5000·t … 5000·t + 4999 of the node features and the whole weight matrix, multiplies them on the matrix unit into a zero
  accumulator, and writes rows 5000·t … of the output back.  A row block of a product is the product of the row
  block: entry (p, q) of block `t` is Σ_k X[5000·t + p, k] · W[k, q], which is entry (5000·t + p, q) of X · W.  The
  ten blocks tile the 50000 rows, so after the region the output array IS X · W of the arrays the region found,
  whatever those are (the statement is generic in the contents `V` at the region's entry).
-/
import proofs.«170955_j1520418423297_1_alg».proof.Proof.Gen.KernelIdeal.Frame
import proofs.«170955_j1520418423297_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Dense0

open Idealize.ShloMosaic Idealize.ShloMosaic.TcCoe Idealize.SL.Sem Idealize.ShloMosaic.ValueIdx
open Idealize.ShloMosaic.Pipeline (Dat Cfg Window)
open Cert.KernelIdeal Cert.KernelIdeal.Gen GraphConv

/-! ## The matrix unit's product into a zero accumulator, read at an entry -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's stored value at entry `(p, q)` of the block: the change of float format is the identity on the extended
    reals, the accumulator is zero, so it is the plain sum of products along the contracted axis. -/
theorem stored_apply (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  refine (Ideal.matmul_constant_zero_apply dot_S5000x128_S128x128_S5000x128_1_0_0_1_n_n none _ _ (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]
  rfl

/-! ## From the blocks to the array -/

variable (V : (c : Dev nD) → (b : Ref sig .tc) → Buf (Elt Ideal) ((c : Thread nD τ).loc b))

/-- The two arrays the region reads, at their literal types: the node features and the weight matrix as the region
    finds them. -/
abbrev feats (c : Dev nD) : FVec Ideal N128 .f32 := V c main_arg0
abbrev weights (c : Dev nD) : FVec Ideal W128 .f32 := V c main_arg2

theorem hz : (![0, 0] : Fin 2 → Nat) = fun _ => 0 := funext fun a => by fin_cases a <;> rfl

/-- The printed index maps over the ten points: the feature window and the output window sit at row block `t`, column
    block 0; the weight window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `X · W` of the arrays as the region finds them. -/
theorem flushed_eq (c : Dev nD) (t : Fin cfg0.N) :
    (dat0 V c).flushed 2 t = ((cfg0.win 2).blk t).view.read (Elt Ideal) (timesW128 (feats V c) (weights V c)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e00, e01, e10, e11, e20, e21⟩ := idx_facts t
  funext j
  obtain ⟨p, q, rfl⟩ : ∃ (p : Fin 5000) (q : Fin 128), j = ix2 p q := ⟨j 0, j 1, eq_ix2 j⟩
  refine (stored_apply (iblk0 V c 0 t) (iblk0 V c 1 t) p q).trans ?_
  show _ = ∑ k : Fin 128, feats V c (rowAt (((cfg0.win 2).blk t).view.emb (ix2 p q)) k) * weights V c (colAt (((cfg0.win 2).blk t).view.emb (ix2 p q)) k)
  refine Finset.sum_congr rfl fun k _ => ?_
  have hx : iblk0 V c 0 t (ix2 p k) = feats V c (rowAt (((cfg0.win 2).blk t).view.emb (ix2 p q)) k) := by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hw : iblk0 V c 1 t (ix2 k q) = weights V c (colAt (((cfg0.win 2).blk t).view.emb (ix2 p q)) k) := by
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hx, hw]

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v34).slice (win0_2.rect t)).set ↔ _
  rw [View.set_slice_whole, Rect.mem_set_unit]
  exact Iff.rfl

/-- Every row block is some point's. -/
theorem idx_onto : ∀ b : Fin 10, ∃ t : Fin cfg0.N, t.val = b.val :=
  (by decide +kernel : ∀ b : Fin 10, ∃ t : Fin grid0.N, t.val = b.val)

/-- The ten blocks cover the array: row `r` lies in block `r / 5000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto ⟨(i 0).val / 5000, by omega⟩
  have ht' : t.val = (i 0).val / 5000 := ht
  obtain ⟨e00, e01, e10, e11, e20, e21⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the output array is `X · W` of the arrays the region found. -/
theorem arr (c : Dev nD) : (dat0 V c).arrAt 2 cfg0.N = timesW128 (feats V c) (weights V c) :=
  (dat0 V c).arrAt_eq_of_cover 2 _ (fun t _ => flushed_eq V c t) cover

end Cert.KernelIdeal.Dense0

end
-- ==== Proof.Shift1.lean ====
/-
  The first layer's epilogue, region by region.  Point `t` of the ten stages rows 5000·t … 5000·t + 4999 of the
  aggregated features and the whole 1 × 128 bias row, adds the bias row to every staged row, clamps at zero, and writes the
  rows back.  Entry (p, q) of block `t` is max (A[5000·t + p, q] + b[0, q]) 0: the operation is row-wise, so a row
  block of the result is the result of the row block, and the ten blocks tile the array.  Generic in the contents `V`
  the region finds.
-/
import proofs.«170955_j1520418423297_1_alg».proof.Proof.Gen.KernelIdeal.Frame
import proofs.«170955_j1520418423297_1_alg».proof.Proof.Spec
import Idealize.ShloMosaic.Lib.Pipeline.Value
import Idealize.ShloMosaic.Lib.ValueIdx

set_option maxRecDepth 16384

noncomputable section

namespace Cert.KernelIdeal.Shift1

open Idealize.ShloMosaic Idealize.ShloMosaic.TcCoe Idealize.SL.Sem Idealize.ShloMosaic.ValueIdx
open Idealize.ShloMosaic.Pipeline (Dat Cfg Window)
open Cert.KernelIdeal Cert.KernelIdeal.Gen GraphConv

/-- The body's stored value at entry `(p, q)` of the block: the casts to the same shape are the identity, the bias row
    broadcast along the rows reads its entry `(0, q)`, and the scalar zero broadcast reads itself. -/
theorem stored_apply (b : Vec Ideal S1x128 .f32) (x : Vec Ideal S5000x128 .f32) (p : Fin 5000) (q : Fin 128) :
    k1_pay1 (F := Ideal) b x (ix2 p q) = max (x (ix2 p q) + b (ix2 (0 : Fin 1) q)) (Ideal.ofBits .f32 0x00000000#32) := by
  unfold k1_pay1
  have hb : broadcastTo S5000x128 (shapeCast S1x128 (shapeCast S1x128 b shapeCasts_S1x128_S1x128) shapeCasts_S1x128_S1x128) broadcasts_S1x128_S5000x128 (ix2 p q) = b (ix2 (0 : Fin 1) q) := by
    rw [shapeCast_self, shapeCast_self]
    exact broadcastTo_apply b broadcasts_S1x128_S5000x128 (ix2 p q) (ix2 (0 : Fin 1) q) (fun a => match a with
      | ⟨0, _⟩ => by show 0 = if (1 : Nat) = 1 then 0 else p.val; rw [if_pos rfl]
      | ⟨1, _⟩ => by show q.val = if (128 : Nat) = 1 then 0 else q.val; rw [if_neg (by decide)])
  have hx : shapeCast S5000x128 x shapeCasts_S5000x128_S5000x128 (ix2 p q) = x (ix2 p q) := by rw [shapeCast_self]
  exact congrArg₂ max (congrArg₂ (· + ·) hx hb) rfl

/-! ## From the blocks to the array -/

variable (V : (c : Dev nD) → (b : Ref sig .tc) → Buf (Elt Ideal) ((c : Thread nD τ).loc b))

/-- The two arrays the region reads, at their literal types: the aggregated features and the bias row as the region
    finds them. -/
abbrev agg (c : Dev nD) : FVec Ideal N128 .f32 := V c main_v46
abbrev biasRow (c : Dev nD) : FVec Ideal B128 .f32 := V c main_v47

theorem hz : (![0, 0] : Fin 2 → Nat) = fun _ => 0 := funext fun a => by fin_cases a <;> rfl

/-- The printed index maps over the ten points: the feature window and the output window sit at row block `t`, column
    block 0; the bias window at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the clamped sum of the arrays as the region finds them. -/
theorem flushed_eq (c : Dev nD) (t : Fin cfg1.N) :
    (dat1 V c).flushed 2 t = ((cfg1.win 2).blk t).view.read (Elt Ideal) (addRowRelu (agg V c) (biasRow V c)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e00, e01, e10, e11, e20, e21⟩ := idx_facts t
  funext j
  obtain ⟨p, q, rfl⟩ : ∃ (p : Fin 5000) (q : Fin 128), j = ix2 p q := ⟨j 0, j 1, eq_ix2 j⟩
  refine (stored_apply (iblk1 V c 1 t) (iblk1 V c 0 t) p q).trans ?_
  show _ = max (agg V c (((cfg1.win 2).blk t).view.emb (ix2 p q)) + biasRow V c (biasAt (((cfg1.win 2).blk t).view.emb (ix2 p q)))) (Ideal.ofBits .f32 0x00000000#32)
  have hx : iblk1 V c 0 t (ix2 p q) = agg V c (((cfg1.win 2).blk t).view.emb (ix2 p q)) := by
    show V c main_v46 (((cfg1.win 0).blk t).view.emb (ix2 p q)) = _
    refine congrArg (V c main_v46) (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have hb : iblk1 V c 1 t (ix2 (0 : Fin 1) q) = biasRow V c (biasAt (((cfg1.win 2).blk t).view.emb (ix2 p q))) := by
    show V c main_v47 (((cfg1.win 1).blk t).view.emb (ix2 (0 : Fin 1) q)) = _
    refine congrArg (V c main_v47) (funext fun a => Fin.ext ?_)
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [hx, hb]

/-- An index of the output array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v48).slice (win1_2.rect t)).set ↔ _
  rw [View.set_slice_whole, Rect.mem_set_unit]
  exact Iff.rfl

/-- Every row block is some point's. -/
theorem idx_onto : ∀ b : Fin 10, ∃ t : Fin cfg1.N, t.val = b.val :=
  (by decide +kernel : ∀ b : Fin 10, ∃ t : Fin grid1.N, t.val = b.val)

/-- The ten blocks cover the array: row `r` lies in block `r / 5000`. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 5000, by omega⟩
  have ht' : t.val = (i 0).val / 5000 := ht
  obtain ⟨e00, e01, e10, e11, e20, e21⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region the output array is the clamped sum of the arrays the region found. -/
theorem arr (c : Dev nD) : (dat1 V c).arrAt 2 cfg1.N = addRowRelu (agg V c) (biasRow V c) :=
  (dat1 V c).arrAt_eq_of_cover 2 _ (fun t _ => flushed_eq V c t) cover

end Cert.KernelIdeal.Shift1

end
-- ==== Proof.Dense2.lean ====
/-
  The second dense stage, region by region: hidden features times the second layer's 128 × 64 weights.  As in the
  first product the grid has ten points; point `t` stages rows 5000·t … 5000·t + 4999 of the hidden features and the
  whole weight matrix and writes rows 5000·t … of the 50000 × 64 output.  Entry (p, q) of block `t` is
  Σ_k H[5000·t + p, k] · W[k, q], entry (5000·t + p, q) of H · W; the blocks tile the rows.  Generic in the contents
  `V` the region finds — here the hidden features are what the previous region left, whatever that is.
-/
import proofs.«170955_j1520418423297_1_alg».proof.Proof.Gen.KernelIdeal.Frame
import proofs.«170955_j1520418423297_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Dense2

open Idealize.ShloMosaic Idealize.ShloMosaic.TcCoe Idealize.SL.Sem Idealize.ShloMosaic.ValueIdx
open Idealize.ShloMosaic.Pipeline (Dat Cfg Window)
open Cert.KernelIdeal Cert.KernelIdeal.Gen GraphConv

/-! ## The matrix unit's product into a zero accumulator, read at an entry -/

theorem lhs_axis0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_axis1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_axis0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_axis1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's stored value at entry `(p, q)` of the block: the cast to the same shape and the change of float format
    are the identity, the accumulator is zero, so it is the plain sum of products along the contracted axis. -/
theorem stored_apply (x : Vec Ideal S5000x128 .f32) (w : Vec Ideal S128x64 .f32) (p : Fin 5000) (q : Fin 64) :
    k2_pay1 (F := Ideal) x w (ix2 p q) = ∑ k : Fin 128, x (ix2 p k) * w (ix2 k q) := by
  unfold k2_pay1
  refine (Ideal.matmul_constant_zero_apply dot_S5000x128_S128x64_S5000x64_1_0_0_1_n_n none _ _ (ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_axis0 _ _).trans hk
    | ⟨1, _⟩ => exact rhs_axis1 _ _)
  rw [el, er, shapeCast_self]
  rfl

/-! ## From the blocks to the array -/

variable (V : (c : Dev nD) → (b : Ref sig .tc) → Buf (Elt Ideal) ((c : Thread nD τ).loc b))

/-- The two arrays the region reads, at their literal types: the hidden features and the weight matrix as the region
    finds them. -/
abbrev hidden (c : Dev nD) : FVec Ideal N128 .f32 := V c main_v48
abbrev weights (c : Dev nD) : FVec Ideal W64 .f32 := V c main_arg4

theorem hz : (![0, 0] : Fin 2 → Nat) = fun _ => 0 := funext fun a => by fin_cases a <;> rfl

/-- The printed index maps over the ten points: the feature window and the output window sit at row block `t`, column
    block 0; the weight window at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `H · W` of the arrays as the region finds them. -/
theorem flushed_eq (c : Dev nD) (t : Fin cfg2.N) :
    (dat2 V c).flushed 2 t = ((cfg2.win 2).blk t).view.read (Elt Ideal) (timesW64 (hidden V c) (weights V c)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨e00, e01, e10, e11, e20, e21⟩ := idx_facts t
  funext j
  obtain ⟨p, q, rfl⟩ : ∃ (p : Fin 5000) (q : Fin 64), j = ix2 p q := ⟨j 0, j 1, eq_ix2 j⟩
  refine (stored_apply (iblk2 V c 0 t) (iblk2 V c 1 t) p q).trans ?_
  show _ = ∑ k : Fin 128, hidden V c (rowAt' (((cfg2.win 2).blk t).view.emb (ix2 p q)) k) * weights V c (colAt' (((cfg2.win 2).blk t).view.emb (ix2 p q)) k)
  refine Finset.sum_congr rfl fun k _ => ?_
  have hx : iblk2 V c 0 t (ix2 p k) = hidden V c (rowAt' (((cfg2.win 2).blk t).view.emb (ix2 p q)) k) := by
    show V c main_v48 (((cfg2.win 0).blk t).view.emb (ix2 p k)) = _
    refine congrArg (V c main_v48) (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have hw : iblk2 V c 1 t (ix2 k q) = weights V c (colAt' (((cfg2.win 2).blk t).view.emb (ix2 p q)) k) := by
    show V c main_arg4 (((cfg2.win 1).blk t).view.emb (ix2 k q)) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 64 + 1 * q.val = win2_2.index t (1 : Fin 2) * 64 + 1 * q.val; omega
  rw [hx, hw]

/-- An index of the output array is in point `t`'s block iff each coordinate is in the block's range on its axis. -/
theorem mem_blk (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v49).slice (win2_2.rect t)).set ↔ _
  rw [View.set_slice_whole, Rect.mem_set_unit]
  exact Iff.rfl

/-- Every row block is some point's. -/
theorem idx_onto : ∀ b : Fin 10, ∃ t : Fin cfg2.N, t.val = b.val :=
  (by decide +kernel : ∀ b : Fin 10, ∃ t : Fin grid2.N, t.val = b.val)

/-- The ten blocks cover the array: row `r` lies in block `r / 5000`. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto ⟨(i 0).val / 5000, by omega⟩
  have ht' : t.val = (i 0).val / 5000 := ht
  obtain ⟨e00, e01, e10, e11, e20, e21⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the region the output array is `H · W` of the arrays the region found. -/
theorem arr (c : Dev nD) : (dat2 V c).arrAt 2 cfg2.N = timesW64 (hidden V c) (weights V c) :=
  (dat2 V c).arrAt_eq_of_cover 2 _ (fun t _ => flushed_eq V c t) cover

end Cert.KernelIdeal.Dense2

end
-- ==== Proof.Shift3.lean ====
/-
  The second layer's epilogue, region by region.  Point `t` of the ten stages rows 5000·t … 5000·t + 4999 of the
  aggregated 64-wide features and the whole 1 × 64 bias row, adds the bias row to every staged row and writes the rows
  back: entry (p, q) of block `t` is A[5000·t + p, q] + b[0, q].  No clamp follows the second layer.  The
  operation is row-wise and the ten blocks tile the array.  Generic in the contents `V` the region finds.
-/
import proofs.«170955_j1520418423297_1_alg».proof.Proof.Gen.KernelIdeal.Frame
import proofs.«170955_j1520418423297_1_alg».proof.Proof.Spec
import Idealize.ShloMosaic.Lib.Pipeline.Value
import Idealize.ShloMosaic.Lib.ValueIdx

set_option maxRecDepth 16384

noncomputable section

namespace Cert.KernelIdeal.Shift3

open Idealize.ShloMosaic Idealize.ShloMosaic.TcCoe Idealize.SL.Sem Idealize.ShloMosaic.ValueIdx
open Idealize.ShloMosaic.Pipeline (Dat Cfg Window)
open Cert.KernelIdeal Cert.KernelIdeal.Gen GraphConv

/-- The body's stored value at entry `(p, q)` of the block: the casts to the same shape are the identity and the bias
    row broadcast along the rows reads its entry `(0, q)`. -/
theorem stored_apply (b : Vec Ideal S1x64 .f32) (x : Vec Ideal S5000x64 .f32) (p : Fin 5000) (q : Fin 64) :
    k3_pay1 (F := Ideal) b x (ix2 p q) = x (ix2 p q) + b (ix2 (0 : Fin 1) q) := by
  unfold k3_pay1
  have hb : broadcastTo S5000x64 (shapeCast S1x64 (shapeCast S1x64 b shapeCasts_S1x64_S1x64) shapeCasts_S1x64_S1x64) broadcasts_S1x64_S5000x64 (ix2 p q) = b (ix2 (0 : Fin 1) q) := by
    rw [shapeCast_self, shapeCast_self]
    exact broadcastTo_apply b broadcasts_S1x64_S5000x64 (ix2 p q) (ix2 (0 : Fin 1) q) (fun a => match a with
      | ⟨0, _⟩ => by show 0 = if (1 : Nat) = 1 then 0 else p.val; rw [if_pos rfl]
      | ⟨1, _⟩ => by show q.val = if (64 : Nat) = 1 then 0 else q.val; rw [if_neg (by decide)])
  have hx : shapeCast S5000x64 x shapeCasts_S5000x64_S5000x64 (ix2 p q) = x (ix2 p q) := by rw [shapeCast_self]
  exact congrArg₂ (· + ·) hx hb

/-! ## From the blocks to the array -/

variable (V : (c : Dev nD) → (b : Ref sig .tc) → Buf (Elt Ideal) ((c : Thread nD τ).loc b))

/-- The two arrays the region reads, at their literal types: the aggregated features and the bias row as the region
    finds them. -/
abbrev agg (c : Dev nD) : FVec Ideal N64 .f32 := V c main_v61
abbrev biasRow (c : Dev nD) : FVec Ideal B64 .f32 := V c main_v62

theorem hz : (![0, 0] : Fin 2 → Nat) = fun _ => 0 := funext fun a => by fin_cases a <;> rfl

/-- The printed index maps over the ten points: the feature window and the output window sit at row block `t`, column
    block 0; the bias window at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the sum of the arrays as the region finds them. -/
theorem flushed_eq (c : Dev nD) (t : Fin cfg3.N) :
    (dat3 V c).flushed 2 t = ((cfg3.win 2).blk t).view.read (Elt Ideal) (addRow (agg V c) (biasRow V c)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  obtain ⟨e00, e01, e10, e11, e20, e21⟩ := idx_facts t
  funext j
  obtain ⟨p, q, rfl⟩ : ∃ (p : Fin 5000) (q : Fin 64), j = ix2 p q := ⟨j 0, j 1, eq_ix2 j⟩
  refine (stored_apply (iblk3 V c 1 t) (iblk3 V c 0 t) p q).trans ?_
  show _ = agg V c (((cfg3.win 2).blk t).view.emb (ix2 p q)) + biasRow V c (biasAt' (((cfg3.win 2).blk t).view.emb (ix2 p q)))
  have hx : iblk3 V c 0 t (ix2 p q) = agg V c (((cfg3.win 2).blk t).view.emb (ix2 p q)) := by
    show V c main_v61 (((cfg3.win 0).blk t).view.emb (ix2 p q)) = _
    refine congrArg (V c main_v61) (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * q.val = win3_2.index t (1 : Fin 2) * 64 + 1 * q.val; omega
  have hb : iblk3 V c 1 t (ix2 (0 : Fin 1) q) = biasRow V c (biasAt' (((cfg3.win 2).blk t).view.emb (ix2 p q))) := by
    show V c main_v62 (((cfg3.win 1).blk t).view.emb (ix2 (0 : Fin 1) q)) = _
    refine congrArg (V c main_v62) (funext fun a => Fin.ext ?_)
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  rw [hx, hb]

/-- An index of the output array is in point `t`'s block iff each coordinate is in the block's range on its axis. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v63).slice (win3_2.rect t)).set ↔ _
  rw [View.set_slice_whole, Rect.mem_set_unit]
  exact Iff.rfl

/-- Every row block is some point's. -/
theorem idx_onto : ∀ b : Fin 10, ∃ t : Fin cfg3.N, t.val = b.val :=
  (by decide +kernel : ∀ b : Fin 10, ∃ t : Fin grid3.N, t.val = b.val)

/-- The ten blocks cover the array: row `r` lies in block `r / 5000`. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := idx_onto ⟨(i 0).val / 5000, by omega⟩
  have ht' : t.val = (i 0).val / 5000 := ht
  obtain ⟨e00, e01, e10, e11, e20, e21⟩ := idx_facts t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- After the region the output array is the sum of the arrays the region found. -/
theorem arr (c : Dev nD) : (dat3 V c).arrAt 2 cfg3.N = addRow (agg V c) (biasRow V c) :=
  (dat3 V c).arrAt_eq_of_cover 2 _ (fun t _ => flushed_eq V c t) cover

end Cert.KernelIdeal.Shift3

end
-- ==== Proof.EdgeSum.lean ====
/-
  The edge aggregation of a graph-convolution layer, as ONE function of the dense features `h` it aggregates: with
  `src`, `dst` the endpoints of the 850000 directed edges (the given ones and a self loop per node) and `nrm` the
  per-edge weight 1/√(deg src · deg dst),

      agg(h)[v, :] = Σ_{e : dst e = v}  h[src e, :] · nrm e

  a gather of rows along `src` (an endpoint below zero counted from the end, as array indexing does), a product with
  the weights broadcast along the features, and a scatter-add into zeros along `dst`.  Both programs apply exactly
  this chain of host operations, to features that are proved equal; so it is carried as one function and never opened.
  `edges_src`, `edges_dst`, `edges_nrm` are the three edge quantities as functions of the edge list.
-/
import proofs.«170955_j1520418423297_1_alg».proof.Proof.Gen.ReferenceIdeal.Read

noncomputable section

namespace Cert.ReferenceIdeal.Edge

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The source endpoints, the destination endpoints and the per-edge weights, from the edge list. -/
abbrev edges_src (e : (⟨S800000x2, .i32⟩ : BufTy).Contents (Elt F)) : (⟨S850000, .i32⟩ : BufTy).Contents (Elt F) := val_main_v4 (F := F) e
abbrev edges_dst (e : (⟨S800000x2, .i32⟩ : BufTy).Contents (Elt F)) : (⟨S850000, .i32⟩ : BufTy).Contents (Elt F) := val_main_v7 (F := F) e
abbrev edges_nrm (e : (⟨S800000x2, .i32⟩ : BufTy).Contents (Elt F)) : (⟨S850000x1, .f32⟩ : BufTy).Contents (Elt F) := val_main_v33 (F := F) e

/-- The aggregation of 128-wide features along the edges. -/
def agg128 (h : (⟨S50000x128, .f32⟩ : BufTy).Contents (Elt F)) (src dst : (⟨S850000, .i32⟩ : BufTy).Contents (Elt F))
    (nrm : (⟨S850000x1, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 dst)
    (mulf
      (Host.gather gather_S50000x128_S850000x1_S850000x128_1_0_n_n_0_1_1128 h
        (broadcastInDim S850000x1 ![0] bcast_S850000_S850000x1_0
          (select (cmpi .slt src (broadcastInDim S850000 ![] bcast_S_S850000 (constantI S_ 32 0#32)))
            (addi src (broadcastInDim S850000 ![] bcast_S_S850000 (constantI S_ 32 50000#32))) src)))
      (broadcastInDim S850000x128 ![0, 1] bcast_S850000x1_S850000x128_0_1 nrm))

/-- The aggregation of 64-wide features along the edges. -/
def agg64 (h : (⟨S50000x64, .f32⟩ : BufTy).Contents (Elt F)) (src dst : (⟨S850000, .i32⟩ : BufTy).Contents (Elt F))
    (nrm : (⟨S850000x1, .f32⟩ : BufTy).Contents (Elt F)) : (⟨S50000x64, .f32⟩ : BufTy).Contents (Elt F) :=
  Host.scatterAdd scatter_S50000x64_S850000x1_S850000x64_1_0_0_1
    (broadcastInDim S50000x64 ![] bcast_S_S50000x64 (constant S_ .f32 0x00000000#32))
    (broadcastInDim S850000x1 ![0] bcast_S850000_S850000x1_0 dst)
    (mulf
      (Host.gather gather_S50000x64_S850000x1_S850000x64_1_0_n_n_0_1_164 h
        (broadcastInDim S850000x1 ![0] bcast_S850000_S850000x1_0
          (select (cmpi .slt src (broadcastInDim S850000 ![] bcast_S_S850000 (constantI S_ 32 0#32)))
            (addi src (broadcastInDim S850000 ![] bcast_S_S850000 (constantI S_ 32 50000#32))) src)))
      (broadcastInDim S850000x64 ![0, 1] bcast_S850000x1_S850000x64_0_1 nrm))

/-- The reference's first aggregate is `agg128` of its first product. -/
theorem ref_agg128 (x0 : (⟨S50000x128, .f32⟩ : BufTy).Contents (Elt F)) (e : (⟨S800000x2, .i32⟩ : BufTy).Contents (Elt F))
    (x2 : (⟨S128x128, .f32⟩ : BufTy).Contents (Elt F)) :
    val_main_v46 (F := F) x0 e x2 = agg128 (val_main_v34 (F := F) x0 x2) (edges_src e) (edges_dst e) (edges_nrm e) := rfl

/-- The reference's second aggregate is `agg64` of its second product. -/
theorem ref_agg64 (x0 : (⟨S50000x128, .f32⟩ : BufTy).Contents (Elt F)) (e : (⟨S800000x2, .i32⟩ : BufTy).Contents (Elt F))
    (x2 : (⟨S128x128, .f32⟩ : BufTy).Contents (Elt F)) (x3 : (⟨S128, .f32⟩ : BufTy).Contents (Elt F)) (x4 : (⟨S128x64, .f32⟩ : BufTy).Contents (Elt F)) :
    val_main_v63 (F := F) x0 e x2 x3 x4 = agg64 (val_main_v51 (F := F) x0 e x2 x3 x4) (edges_src e) (edges_dst e) (edges_nrm e) := rfl

end Cert.ReferenceIdeal.Edge

end
-- ==== Proof.Rows.lean ====
/-
  A bias vector laid out as a one-row matrix: entry (0, c) of the row is entry c of the vector.  One program makes the
  row by a reshape, the other by a broadcast into a new unit axis; both are this.
-/
import Idealize.ShloMosaic.PureOps.Ideal
import Idealize.ShloMosaic.Lib.ValueIdx
import proofs.«170955_j1520418423297_1_alg».proof.Proof.Spec

noncomputable section

namespace GraphConv

open Idealize.ShloMosaic Idealize.ShloMosaic.ValueIdx

abbrev V128 : Shape := ⟨1, ![128]⟩
abbrev V64 : Shape := ⟨1, ![64]⟩

/-- The 128 biases of the first layer as a 1 × 128 row. -/
def asRow128 (b : FVec Ideal V128 .f32) : FVec Ideal B128 .f32 := fun j => b (ix1 (⟨(j 1).val, (j 1).isLt⟩ : Fin 128))

/-- The 64 biases of the second layer as a 1 × 64 row. -/
def asRow64 (b : FVec Ideal V64 .f32) : FVec Ideal B64 .f32 := fun j => b (ix1 (⟨(j 1).val, (j 1).isLt⟩ : Fin 64))

end GraphConv

end
-- ==== Proof.RefLayers.lean ====
/-
  The reference, stage by stage, in the words of the specification: its first product is X · W1; its first aggregate is
  the edge aggregation of that; the add of the broadcast bias followed by the outlined max(·, 0) is the clamped row
  sum; its second product is (that) · W2; its second aggregate the edge aggregation; its last add the row sum.
  Composed: the whole reference is ONE term `network` of the six arguments — the term the kernel's run is shown to end at.
-/
import proofs.«170955_j1520418423297_1_alg».proof.Proof.EdgeSum
import proofs.«170955_j1520418423297_1_alg».proof.Proof.Spec
import proofs.«170955_j1520418423297_1_alg».proof.Proof.Rows
import Idealize.ShloMosaic.Lib.Pipeline.Value
import Idealize.ShloMosaic.Lib.ValueIdx

noncomputable section

namespace Cert.ReferenceIdeal.Layers

open Cert.ReferenceIdeal Cert.ReferenceIdeal.Gen Cert.ReferenceIdeal.Read Cert.ReferenceIdeal.Edge GraphConv
open Idealize.ShloMosaic Idealize.ShloMosaic.TcCoe Idealize.SL.Sem Idealize.ShloMosaic.StableHlo Idealize.ShloMosaic.ValueIdx

/-! ## The operand indices of the two products, in the specification's coordinates -/

theorem lrow1 (i : S50000x128.Idx) (k : Fin 128) : lidx_main_v34 i k = rowAt i k :=
  funext fun a => Fin.ext (by match a with | ⟨0, _⟩ => rfl | ⟨1, _⟩ => rfl)
theorem rcol1 (i : S50000x128.Idx) (k : Fin 128) : ridx_main_v34 i k = colAt i k :=
  funext fun a => Fin.ext (by match a with | ⟨0, _⟩ => rfl | ⟨1, _⟩ => rfl)
theorem lrow2 (i : S50000x64.Idx) (k : Fin 128) : lidx_main_v51 i k = rowAt' i k :=
  funext fun a => Fin.ext (by match a with | ⟨0, _⟩ => rfl | ⟨1, _⟩ => rfl)
theorem rcol2 (i : S50000x64.Idx) (k : Fin 128) : ridx_main_v51 i k = colAt' i k :=
  funext fun a => Fin.ext (by match a with | ⟨0, _⟩ => rfl | ⟨1, _⟩ => rfl)

/-! ## The four dense stages -/

/-- The first product. -/
theorem product1 (x0 : FVec Ideal N128 .f32) (x2 : FVec Ideal W128 .f32) :
    val_main_v34 (F := Ideal) x0 x2 = timesW128 x0 x2 := by
  funext i
  rw [val_main_v34_apply]
  exact Finset.sum_congr rfl fun k _ => by rw [lrow1, rcol1]

/-- The first epilogue: the bias broadcast to a row and then along the rows, added, and the clamp. -/
theorem epilogue1 (x0 : FVec Ideal N128 .f32) (e : (⟨S800000x2, .i32⟩ : BufTy).Contents (Elt Ideal)) (x2 : FVec Ideal W128 .f32)
    (x3 : FVec Ideal V128 .f32) :
    val_main_v50 (F := Ideal) x0 e x2 x3 = addRowRelu (val_main_v46 (F := Ideal) x0 e x2) (asRow128 x3) := by
  funext i
  rw [val_main_v50_apply, val_main_v49_apply, val_main_v48_apply, val_main_v47_apply, val_main_call0_v0_apply, val_main_call0_cst_apply]
  have hi : idx_main_v47 (idx_main_v48 i) = ix1 (⟨(i 1).val, (i 1).isLt⟩ : Fin 128) :=
    funext fun a => Fin.ext (by match a with | ⟨0, _⟩ => rfl)
  rw [hi]
  rfl

/-- The second product. -/
theorem product2 (x0 : FVec Ideal N128 .f32) (e : (⟨S800000x2, .i32⟩ : BufTy).Contents (Elt Ideal)) (x2 : FVec Ideal W128 .f32)
    (x3 : FVec Ideal V128 .f32) (x4 : FVec Ideal W64 .f32) :
    val_main_v51 (F := Ideal) x0 e x2 x3 x4 = timesW64 (val_main_v50 (F := Ideal) x0 e x2 x3) x4 := by
  funext i
  rw [val_main_v51_apply]
  exact Finset.sum_congr rfl fun k _ => by rw [lrow2, rcol2]

/-- The second epilogue: the bias broadcast to a row and then along the rows, added. -/
theorem epilogue2 (x0 : FVec Ideal N128 .f32) (e : (⟨S800000x2, .i32⟩ : BufTy).Contents (Elt Ideal)) (x2 : FVec Ideal W128 .f32)
    (x3 : FVec Ideal V128 .f32) (x4 : FVec Ideal W64 .f32) (x5 : FVec Ideal V64 .f32) :
    val_main_v66 (F := Ideal) x0 e x2 x3 x4 x5 = addRow (val_main_v63 (F := Ideal) x0 e x2 x3 x4) (asRow64 x5) := by
  funext i
  rw [val_main_v66_apply, val_main_v65_apply, val_main_v64_apply]
  have hi : idx_main_v64 (idx_main_v65 i) = ix1 (⟨(i 1).val, (i 1).isLt⟩ : Fin 64) :=
    funext fun a => Fin.ext (by match a with | ⟨0, _⟩ => rfl)
  rw [hi]
  rfl

/-! ## The whole network -/

/-- Two graph-convolution layers as one function of the six arguments: features, edge list, weights and biases. -/
def network (x0 : FVec Ideal N128 .f32) (e : (⟨S800000x2, .i32⟩ : BufTy).Contents (Elt Ideal)) (x2 : FVec Ideal W128 .f32)
    (x3 : FVec Ideal V128 .f32) (x4 : FVec Ideal W64 .f32) (x5 : FVec Ideal V64 .f32) : FVec Ideal N64 .f32 :=
  addRow
    (agg64 (F := Ideal)
      (timesW64
        (addRowRelu (agg128 (F := Ideal) (timesW128 x0 x2) (edges_src e) (edges_dst e) (edges_nrm e)) (asRow128 x3))
        x4)
      (edges_src e) (edges_dst e) (edges_nrm e))
    (asRow64 x5)

/-- The reference computes `network`. -/
theorem ref_network (x0 : FVec Ideal N128 .f32) (e : (⟨S800000x2, .i32⟩ : BufTy).Contents (Elt Ideal)) (x2 : FVec Ideal W128 .f32)
    (x3 : FVec Ideal V128 .f32) (x4 : FVec Ideal W64 .f32) (x5 : FVec Ideal V64 .f32) :
    val_main_v66 (F := Ideal) x0 e x2 x3 x4 x5 = network x0 e x2 x3 x4 x5 := by
  rw [epilogue2, ref_agg64, product2, epilogue1, ref_agg128, product1]
  rfl

end Cert.ReferenceIdeal.Layers

end
-- ==== Proof.KernelValue.lean ====
/-
  What the kernel's run leaves in its result buffer, walked back through @main's seven segments.  Between the launch
  and the return the buffers pass eight boundaries: after the first stretch of host operations (which computes the
  edge endpoints and weights), after the first product's region, after the second stretch (the first edge
  aggregation, and the first bias reshaped to a row), after the first epilogue's region, after the second product's
  region, after the third stretch (the second aggregation, the second bias as a row), after the last epilogue's
  region.  At each boundary a buffer is either untouched since the previous one or holds the stage's function of
  buffers of the previous boundary: a region's output is its closed form, a host stretch's output the stretch's
  operations read back.  Composed, the result buffer ends at `network` of the six arguments — the very term the
  reference computes.
-/
import proofs.«170955_j1520418423297_1_alg».proof.Proof.Gen.KernelIdeal.Frame
import proofs.«170955_j1520418423297_1_alg».proof.Proof.Dense0
import proofs.«170955_j1520418423297_1_alg».proof.Proof.Shift1
import proofs.«170955_j1520418423297_1_alg».proof.Proof.Dense2
import proofs.«170955_j1520418423297_1_alg».proof.Proof.Shift3
import proofs.«170955_j1520418423297_1_alg».proof.Proof.RefLayers
import Idealize.ShloMosaic.Lib.StableHlo.Run
import Idealize.ShloMosaic.Lib.Pipeline.Value

set_option maxRecDepth 16384

noncomputable section

namespace Cert.KernelIdeal.Walk

open Idealize.ShloMosaic Idealize.ShloMosaic.TcCoe Idealize.SL.Sem Idealize.ShloMosaic.ValueIdx Idealize.ShloMosaic.StableHlo
open Cert.KernelIdeal Cert.KernelIdeal.Gen GraphConv

/-! ## A vector reshaped to a one-row matrix -/

theorem reshape_row128 (b : FVec Ideal V128 .f32) (h : V128.ShapeCasts B128) : shapeCast B128 b h = asRow128 b := by
  funext j
  refine (shapeCast_addUnit_apply ![128] b h j).trans ?_
  exact congrArg b (funext fun a => Fin.ext (by match a with | ⟨0, _⟩ => rfl))

theorem reshape_row64 (b : FVec Ideal V64 .f32) (h : V64.ShapeCasts B64) : shapeCast B64 b h = asRow64 b := by
  funext j
  refine (shapeCast_addUnit_apply ![64] b h j).trans ?_
  exact congrArg b (funext fun a => Fin.ext (by match a with | ⟨0, _⟩ => rfl))

variable (m : (ℓ : Loc nD τ sig) → Buf (Elt Ideal) ℓ) (ρ : Dev nD → PrngReg)

/-! ## The six arguments on a core, and the stages -/

abbrev x0 (c : Dev nD) : FVec Ideal N128 .f32 := m ((c : Thread nD τ).loc main_arg0)
abbrev xe (c : Dev nD) : (⟨Cert.ReferenceIdeal.S800000x2, .i32⟩ : BufTy).Contents (Elt Ideal) := m ((c : Thread nD τ).loc main_arg1)
abbrev x2 (c : Dev nD) : FVec Ideal W128 .f32 := m ((c : Thread nD τ).loc main_arg2)
abbrev x3 (c : Dev nD) : FVec Ideal V128 .f32 := m ((c : Thread nD τ).loc main_arg3)
abbrev x4 (c : Dev nD) : FVec Ideal W64 .f32 := m ((c : Thread nD τ).loc main_arg4)
abbrev x5 (c : Dev nD) : FVec Ideal V64 .f32 := m ((c : Thread nD τ).loc main_arg5)

/-- The edge endpoints and weights, the first product, its aggregate, the hidden features, the second product, its
    aggregate. -/
abbrev src (c : Dev nD) := Cert.ReferenceIdeal.Edge.edges_src (F := Ideal) (xe m c)
abbrev dst (c : Dev nD) := Cert.ReferenceIdeal.Edge.edges_dst (F := Ideal) (xe m c)
abbrev nrm (c : Dev nD) := Cert.ReferenceIdeal.Edge.edges_nrm (F := Ideal) (xe m c)
def h1 (c : Dev nD) : FVec Ideal N128 .f32 := timesW128 (x0 m c) (x2 m c)
def g1 (c : Dev nD) : FVec Ideal N128 .f32 := Cert.ReferenceIdeal.Edge.agg128 (F := Ideal) (h1 m c) (src m c) (dst m c) (nrm m c)
def y1 (c : Dev nD) : FVec Ideal N128 .f32 := addRowRelu (g1 m c) (asRow128 (x3 m c))
def h2 (c : Dev nD) : FVec Ideal N64 .f32 := timesW64 (y1 m c) (x4 m c)
def g2 (c : Dev nD) : FVec Ideal N64 .f32 := Cert.ReferenceIdeal.Edge.agg64 (F := Ideal) (h2 m c) (src m c) (dst m c) (nrm m c)

/-! ## After the first host stretch -/

theorem W1_arg0 (c : Dev nD) : W1 m ρ c (Proc.devRef .tc main_arg0) = x0 m c := by
  show StableHlo.after hostOps0 (W0 m ρ c) (Proc.devRef .tc main_arg0) = _
  after_results_simp <;> rfl
theorem W1_arg2 (c : Dev nD) : W1 m ρ c (Proc.devRef .tc main_arg2) = x2 m c := by
  show StableHlo.after hostOps0 (W0 m ρ c) (Proc.devRef .tc main_arg2) = _
  after_results_simp <;> rfl
theorem W1_arg3 (c : Dev nD) : W1 m ρ c (Proc.devRef .tc main_arg3) = x3 m c := by
  show StableHlo.after hostOps0 (W0 m ρ c) (Proc.devRef .tc main_arg3) = _
  after_results_simp <;> rfl
theorem W1_arg4 (c : Dev nD) : W1 m ρ c (Proc.devRef .tc main_arg4) = x4 m c := by
  show StableHlo.after hostOps0 (W0 m ρ c) (Proc.devRef .tc main_arg4) = _
  after_results_simp <;> rfl
theorem W1_arg5 (c : Dev nD) : W1 m ρ c (Proc.devRef .tc main_arg5) = x5 m c := by
  show StableHlo.after hostOps0 (W0 m ρ c) (Proc.devRef .tc main_arg5) = _
  after_results_simp <;> rfl
theorem W1_src (c : Dev nD) : W1 m ρ c (Proc.devRef .tc main_v4) = src m c := by
  show StableHlo.after hostOps0 (W0 m ρ c) (Proc.devRef .tc main_v4) = _
  after_results_simp <;> rfl
theorem W1_dst (c : Dev nD) : W1 m ρ c (Proc.devRef .tc main_v7) = dst m c := by
  show StableHlo.after hostOps0 (W0 m ρ c) (Proc.devRef .tc main_v7) = _
  after_results_simp <;> rfl
theorem W1_nrm (c : Dev nD) : W1 m ρ c (Proc.devRef .tc main_v33) = nrm m c := by
  show StableHlo.after hostOps0 (W0 m ρ c) (Proc.devRef .tc main_v33) = _
  after_results_simp <;> rfl

/-! ## After the first product's region -/

theorem W2_h1 (c : Dev nD) : W2 m ρ c (Proc.devRef .tc main_v34) = h1 m c := by
  refine (W2_arr m ρ c 2).trans ?_
  refine (Dense0.arr (V1 m ρ) c).trans ?_
  show timesW128 (W1 m ρ c (Proc.devRef .tc main_arg0)) (W1 m ρ c (Proc.devRef .tc main_arg2)) = _
  rw [W1_arg0, W1_arg2]
  rfl
theorem W2_arg3 (c : Dev nD) : W2 m ρ c (Proc.devRef .tc main_arg3) = x3 m c := (W2_of_ne m ρ c main_arg3 (by decide)).trans (W1_arg3 m ρ c)
theorem W2_arg4 (c : Dev nD) : W2 m ρ c (Proc.devRef .tc main_arg4) = x4 m c := (W2_of_ne m ρ c main_arg4 (by decide)).trans (W1_arg4 m ρ c)
theorem W2_arg5 (c : Dev nD) : W2 m ρ c (Proc.devRef .tc main_arg5) = x5 m c := (W2_of_ne m ρ c main_arg5 (by decide)).trans (W1_arg5 m ρ c)
theorem W2_src (c : Dev nD) : W2 m ρ c (Proc.devRef .tc main_v4) = src m c := (W2_of_ne m ρ c main_v4 (by decide)).trans (W1_src m ρ c)
theorem W2_dst (c : Dev nD) : W2 m ρ c (Proc.devRef .tc main_v7) = dst m c := (W2_of_ne m ρ c main_v7 (by decide)).trans (W1_dst m ρ c)
theorem W2_nrm (c : Dev nD) : W2 m ρ c (Proc.devRef .tc main_v33) = nrm m c := (W2_of_ne m ρ c main_v33 (by decide)).trans (W1_nrm m ρ c)

/-! ## After the second host stretch -/

theorem W3_g1 (c : Dev nD) : W3 m ρ c (Proc.devRef .tc main_v46) = g1 m c := by
  show StableHlo.after hostOps1 (W2 m ρ c) (Proc.devRef .tc main_v46) = _
  after_results_simp
  rw [W2_h1, W2_src, W2_dst, W2_nrm]
  rfl
theorem W3_row1 (c : Dev nD) : W3 m ρ c (Proc.devRef .tc main_v47) = asRow128 (x3 m c) := by
  show StableHlo.after hostOps1 (W2 m ρ c) (Proc.devRef .tc main_v47) = _
  after_results
  rw [W2_arg3]
  exact reshape_row128 _ _
theorem W3_arg4 (c : Dev nD) : W3 m ρ c (Proc.devRef .tc main_arg4) = x4 m c := by
  show StableHlo.after hostOps1 (W2 m ρ c) (Proc.devRef .tc main_arg4) = _
  after_results
  exact W2_arg4 m ρ c
theorem W3_arg5 (c : Dev nD) : W3 m ρ c (Proc.devRef .tc main_arg5) = x5 m c := by
  show StableHlo.after hostOps1 (W2 m ρ c) (Proc.devRef .tc main_arg5) = _
  after_results
  exact W2_arg5 m ρ c
theorem W3_src (c : Dev nD) : W3 m ρ c (Proc.devRef .tc main_v4) = src m c := by
  show StableHlo.after hostOps1 (W2 m ρ c) (Proc.devRef .tc main_v4) = _
  after_results
  exact W2_src m ρ c
theorem W3_dst (c : Dev nD) : W3 m ρ c (Proc.devRef .tc main_v7) = dst m c := by
  show StableHlo.after hostOps1 (W2 m ρ c) (Proc.devRef .tc main_v7) = _
  after_results
  exact W2_dst m ρ c
theorem W3_nrm (c : Dev nD) : W3 m ρ c (Proc.devRef .tc main_v33) = nrm m c := by
  show StableHlo.after hostOps1 (W2 m ρ c) (Proc.devRef .tc main_v33) = _
  after_results
  exact W2_nrm m ρ c

/-! ## After the first epilogue's region -/

theorem W4_y1 (c : Dev nD) : W4 m ρ c (Proc.devRef .tc main_v48) = y1 m c := by
  refine (W4_arr m ρ c 2).trans ?_
  refine (Shift1.arr (V3 m ρ) c).trans ?_
  show addRowRelu (W3 m ρ c (Proc.devRef .tc main_v46)) (W3 m ρ c (Proc.devRef .tc main_v47)) = _
  rw [W3_g1, W3_row1]
  rfl
theorem W4_arg4 (c : Dev nD) : W4 m ρ c (Proc.devRef .tc main_arg4) = x4 m c := (W4_of_ne m ρ c main_arg4 (by decide)).trans (W3_arg4 m ρ c)
theorem W4_arg5 (c : Dev nD) : W4 m ρ c (Proc.devRef .tc main_arg5) = x5 m c := (W4_of_ne m ρ c main_arg5 (by decide)).trans (W3_arg5 m ρ c)
theorem W4_src (c : Dev nD) : W4 m ρ c (Proc.devRef .tc main_v4) = src m c := (W4_of_ne m ρ c main_v4 (by decide)).trans (W3_src m ρ c)
theorem W4_dst (c : Dev nD) : W4 m ρ c (Proc.devRef .tc main_v7) = dst m c := (W4_of_ne m ρ c main_v7 (by decide)).trans (W3_dst m ρ c)
theorem W4_nrm (c : Dev nD) : W4 m ρ c (Proc.devRef .tc main_v33) = nrm m c := (W4_of_ne m ρ c main_v33 (by decide)).trans (W3_nrm m ρ c)

/-! ## After the second product's region -/

theorem W5_h2 (c : Dev nD) : W5 m ρ c (Proc.devRef .tc main_v49) = h2 m c := by
  refine (W5_arr m ρ c 2).trans ?_
  refine (Dense2.arr (V4 m ρ) c).trans ?_
  show timesW64 (W4 m ρ c (Proc.devRef .tc main_v48)) (W4 m ρ c (Proc.devRef .tc main_arg4)) = _
  rw [W4_y1, W4_arg4]
  rfl
theorem W5_arg5 (c : Dev nD) : W5 m ρ c (Proc.devRef .tc main_arg5) = x5 m c := (W5_of_ne m ρ c main_arg5 (by decide)).trans (W4_arg5 m ρ c)
theorem W5_src (c : Dev nD) : W5 m ρ c (Proc.devRef .tc main_v4) = src m c := (W5_of_ne m ρ c main_v4 (by decide)).trans (W4_src m ρ c)
theorem W5_dst (c : Dev nD) : W5 m ρ c (Proc.devRef .tc main_v7) = dst m c := (W5_of_ne m ρ c main_v7 (by decide)).trans (W4_dst m ρ c)
theorem W5_nrm (c : Dev nD) : W5 m ρ c (Proc.devRef .tc main_v33) = nrm m c := (W5_of_ne m ρ c main_v33 (by decide)).trans (W4_nrm m ρ c)

/-! ## After the third host stretch -/

theorem W6_g2 (c : Dev nD) : W6 m ρ c (Proc.devRef .tc main_v61) = g2 m c := by
  show StableHlo.after hostOps3 (W5 m ρ c) (Proc.devRef .tc main_v61) = _
  after_results_simp
  rw [W5_h2, W5_src, W5_dst, W5_nrm]
  rfl
theorem W6_row2 (c : Dev nD) : W6 m ρ c (Proc.devRef .tc main_v62) = asRow64 (x5 m c) := by
  show StableHlo.after hostOps3 (W5 m ρ c) (Proc.devRef .tc main_v62) = _
  after_results
  rw [W5_arg5]
  exact reshape_row64 _ _

/-! ## After the last epilogue's region: the result -/

/-- The result buffer ends at the network of the six arguments. -/
theorem W7_out (c : Dev nD) : W7 m ρ c (Proc.devRef .tc main_v63)
    = Cert.ReferenceIdeal.Layers.network (x0 m c) (xe m c) (x2 m c) (x3 m c) (x4 m c) (x5 m c) := by
  refine (W7_arr m ρ c 2).trans ?_
  refine (Shift3.arr (V6 m ρ) c).trans ?_
  show addRow (W6 m ρ c (Proc.devRef .tc main_v61)) (W6 m ρ c (Proc.devRef .tc main_v62)) = _
  rw [W6_g2, W6_row2]
  rfl

end Cert.KernelIdeal.Walk

end
-- ==== Proof.lean ====
/-
  Two graph-convolution layers over 50000 nodes and 850000 directed edges (the 800000 given ones and a self loop per
  node):

      layer(X, W, b) = agg(X · W) + b,        out = layer(max(layer(X, W1, b1), 0), W2, b2)

  where agg gathers rows along the edges' sources, scales each by 1/√(deg src · deg dst) and scatter-adds them at the
  edges' destinations.  The kernel computes the two products X · W and the two bias epilogues in four pallas_calls of
  ten row blocks each (the products on the matrix unit from operands narrowed to bf16, which over the extended reals is
  no change), and leaves agg to the same host operations the reference uses.  So, over the extended reals:

    * each product region leaves X · W in its output array, whatever X it finds (a row block of a product is the
      product of the row block; the blocks tile the rows): Proof/Dense0.lean, Proof/Dense2.lean;
    * each epilogue region leaves the row sum, clamped at zero after the first layer: Proof/Shift1.lean,
      Proof/Shift3.lean;
    * the host stretches between the regions are read back one buffer at a time, and the result buffer ends at ONE
      term `network` of the six arguments: Proof/KernelValue.lean over the run of Proof/ResultRun.lean;
    * the reference's stages are the same functions — its dot_general the same sum, its two broadcasts of a bias the
      same row, its outlined relu the same clamp — so it computes `network` too: Proof/RefLayers.lean.

  No law of arithmetic beyond reading both sides as the same sums is used: neither commutativity nor finiteness of the
  inputs, and the edge aggregation (Proof/EdgeSum.lean) is never opened.  The ideal pass rewrote nothing, so
  `preserves` is trivial; the three frames are the generated ones, the reference's its generated run with the result
  dropped.
-/
import proofs.«170955_j1520418423297_1_alg».proof.Defs
import proofs.«170955_j1520418423297_1_alg».proof.Proof.Gen.Kernel
import proofs.«170955_j1520418423297_1_alg».proof.Proof.Gen.Kernel.Skeleton
import proofs.«170955_j1520418423297_1_alg».proof.Proof.Gen.Kernel.Launch
import proofs.«170955_j1520418423297_1_alg».proof.Proof.Gen.Kernel.Points
import proofs.«170955_j1520418423297_1_alg».proof.Proof.Gen.Kernel.Frame
import proofs.«170955_j1520418423297_1_alg».proof.Proof.Gen.KernelIdeal
import proofs.«170955_j1520418423297_1_alg».proof.Proof.Gen.KernelIdeal.Skeleton
import proofs.«170955_j1520418423297_1_alg».proof.Proof.Gen.KernelIdeal.Launch
import proofs.«170955_j1520418423297_1_alg».proof.Proof.Gen.KernelIdeal.Points
import proofs.«170955_j1520418423297_1_alg».proof.Proof.Gen.KernelIdeal.Frame
import proofs.«170955_j1520418423297_1_alg».proof.Proof.Gen.ReferenceIdeal
import proofs.«170955_j1520418423297_1_alg».proof.Proof.Gen.Pre_finite_inputs
import proofs.«170955_j1520418423297_1_alg».proof.Proof.Gen.ReferenceIdeal.Run
import proofs.«170955_j1520418423297_1_alg».proof.Proof.Gen.ReferenceIdeal.Read
import proofs.«170955_j1520418423297_1_alg».proof.Proof.ResultRun
import proofs.«170955_j1520418423297_1_alg».proof.Proof.KernelValue
import proofs.«170955_j1520418423297_1_alg».proof.Proof.RefLayers
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at `network` of the arguments: the kernel's by the walk through its segments, the
    reference's by its stages; the arguments agree, so the two terms are one. -/
theorem algebraic : Cert.algebraic_KernelIdeal_ReferenceIdeal := by
  intro m ρ m' ρ' _ hagree
  refine ⟨fun c => Cert.ReferenceIdeal.Layers.network (Cert.KernelIdeal.Walk.x0 m c) (Cert.KernelIdeal.Walk.xe m c)
    (Cert.KernelIdeal.Walk.x2 m c) (Cert.KernelIdeal.Walk.x3 m c) (Cert.KernelIdeal.Walk.x4 m c) (Cert.KernelIdeal.Walk.x5 m c), ?_, ?_⟩
  · exact (θ_run Cert.KernelIdeal.defs _ _).mono
      (fun r h c => ⟨(h c).1.trans (Cert.KernelIdeal.Walk.W7_out m ρ c), (h c).2⟩)
      (Cert.KernelIdeal.ResultRun.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v66_eq, (hagree c).1, (hagree c).2.1, (hagree c).2.2.1, (hagree c).2.2.2.1,
      (hagree c).2.2.2.2.1, (hagree c).2.2.2.2.2]
    exact Cert.ReferenceIdeal.Layers.ref_network _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
